-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x64, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_17 : Ref sig .tc := ⟨.hbm, 84, rfl⟩
abbrev main_v56 : Ref sig .tc := ⟨.hbm, 85, rfl⟩
abbrev main_v57 : Ref sig .tc := ⟨.hbm, 86, rfl⟩
abbrev main_c_18 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Layers.lean ====
/-
  The three dense passes of the two-layer graph convolution, as whole-array functions at the extended reals.
  Each pass works row by row: output row `r` reads row `r` of its node-indexed operands (the features or the
  aggregated messages, and the per-node degree norms kept as one-column arrays) and the whole of the weight matrix
  and the bias row. So every pass is a ROW FUNCTION applied at each row, and a row block of the result is the same
  row function applied to the matching row block of the operands.
    * `scaledEntry`: a feature times its node's norm.
    * `hiddenRow`: the first layer's row — the aggregated row scaled by the destination norm, times `W`, plus the
      bias, clamped below at zero, then scaled by the source norm (ready to be gathered by the next layer).
    * `outRow`: the second layer's row — the aggregated row scaled by the destination norm, times `W`, plus the bias.
  A product row·matrix is the plain sum over the contracted coordinate; sums in the extended reals are commutative
  and associative, so no order of summation is fixed here.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The zero the first layer clamps at: the f32 word of all zero bits, read at the extended reals. -/
abbrev zeroWord : EReal := Ideal.ofBits .f32 0x00000000#32

/-- One entry of a scaled row: the feature times the node's norm. -/
def scaledEntry (x n : EReal) : EReal := x * n

/-- One row of the first layer, at column `q`: `max (Σₖ (aₖ · nd) · W k q + b q) 0 · ns`. -/
def hiddenRow (a : Fin 128 → EReal) (nd ns : EReal) (W : Fin 128 → Fin 128 → EReal) (b : Fin 128 → EReal) (q : Fin 128) : EReal :=
  max ((∑ k : Fin 128, (a k * nd) * W k q) + b q) zeroWord * ns

/-- One row of the second layer, at column `q`: `Σₖ (aₖ · nd) · W k q + b q`. -/
def outRow (a : Fin 128 → EReal) (nd : EReal) (W : Fin 128 → Fin 64 → EReal) (b : Fin 64 → EReal) (q : Fin 64) : EReal :=
  (∑ k : Fin 128, (a k * nd) * W k q) + b q

/-- Rows of `R` nodes by `C` features. -/
abbrev Mat (R C : Nat) : Shape := ⟨2, ![R, C]⟩

/-- The features scaled row-wise by a one-column array of norms. -/
def scaleRows {R : Nat} (x : (Mat R 128).Idx → EReal) (n : (Mat R 1).Idx → EReal) : (Mat R 128).Idx → EReal :=
  fun i => scaledEntry (x i) (n (ix2 (i 0) 0))

/-- The first layer on `R` rows. -/
def hiddenLayer {R : Nat} (a : (Mat R 128).Idx → EReal) (nd ns : (Mat R 1).Idx → EReal) (W : (Mat 128 128).Idx → EReal)
    (b : (Mat 1 128).Idx → EReal) : (Mat R 128).Idx → EReal :=
  fun i => hiddenRow (fun k => a (ix2 (i 0) k)) (nd (ix2 (i 0) 0)) (ns (ix2 (i 0) 0)) (fun k q => W (ix2 k q)) (fun q => b (ix2 0 q)) (i 1)

/-- The second layer on `R` rows. -/
def outLayer {R : Nat} (a : (Mat R 128).Idx → EReal) (nd : (Mat R 1).Idx → EReal) (W : (Mat 128 64).Idx → EReal)
    (b : (Mat 1 64).Idx → EReal) : (Mat R 64).Idx → EReal :=
  fun i => outRow (fun k => a (ix2 (i 0) k)) (nd (ix2 (i 0) 0)) (fun k q => W (ix2 k q)) (fun q => b (ix2 0 q)) (i 1)

/-! ## The passes at row `r`, column `q` -/

theorem scaleRows_apply {R : Nat} (x : (Mat R 128).Idx → EReal) (n : (Mat R 1).Idx → EReal) (r : Fin R) (q : Fin 128) :
    scaleRows x n (ix2 r q) = scaledEntry (x (ix2 r q)) (n (ix2 r 0)) := rfl

theorem hiddenLayer_apply {R : Nat} (a : (Mat R 128).Idx → EReal) (nd ns : (Mat R 1).Idx → EReal) (W : (Mat 128 128).Idx → EReal)
    (b : (Mat 1 128).Idx → EReal) (r : Fin R) (q : Fin 128) :
    hiddenLayer a nd ns W b (ix2 r q)
      = hiddenRow (fun k => a (ix2 r k)) (nd (ix2 r 0)) (ns (ix2 r 0)) (fun k q => W (ix2 k q)) (fun q => b (ix2 0 q)) q := rfl

theorem outLayer_apply {R : Nat} (a : (Mat R 128).Idx → EReal) (nd : (Mat R 1).Idx → EReal) (W : (Mat 128 64).Idx → EReal)
    (b : (Mat 1 64).Idx → EReal) (r : Fin R) (q : Fin 64) :
    outLayer a nd W b (ix2 r q) = outRow (fun k => a (ix2 r k)) (nd (ix2 r 0)) (fun k q => W (ix2 k q)) (fun q => b (ix2 0 q)) q := rfl

end Cert.Gcn

end
-- ==== Proof.Payloads.lean ====
/-
  What each kernel body stores, entry by entry, at the extended reals: the body's one stored value, read at row `p` and
  column `q` of its block, is the pass's row function of row `p` of the loaded blocks.
  The shape casts in the bodies are to the same shape (the identity); rounding the matmul's operands to bf16 is the
  identity at the extended reals; a one-column block broadcast along the columns reads its row's entry, the one-row
  bias block broadcast along the rows reads its column's entry; the matmul into a zero accumulator is the plain sum over
  the contracted coordinate.
-/
import proofs.«157620_j16552803959363_1_alg».proof.Proof.Gen.KernelIdeal.Skeleton
import proofs.«157620_j16552803959363_1_alg».proof.Proof.Layers
import Idealize.ShloMosaic.Lib.Pipeline.Value
import Idealize.ShloMosaic.Lib.ValueIdx
import Idealize.ShloMosaic.PureOps.Ideal.Laws

noncomputable section

namespace Cert.Gcn

open Cert.KernelIdeal Cert.KernelIdeal.Gen
open Idealize.ShloMosaic Idealize.ShloMosaic.ValueIdx

/-! ## Broadcasts of a column and of a row, read at an entry -/

/-- A one-column array broadcast along the columns reads its row's entry. -/
theorem broadcastTo_col {α : Type} {R C : Nat} (hR : R ≠ 1) (x : (Mat R 1).Idx → α) (h : (Mat R 1).Broadcasts (Mat R C))
    (p : Fin R) (q : Fin C) : broadcastTo (Mat R C) x h (ix2 p q) = x (ix2 p 0) :=
  broadcastTo_apply x h (ix2 p q) (ix2 p 0) (fun a => match a with
    | ⟨0, _⟩ => by show p.val = if R = 1 then 0 else p.val; rw [if_neg hR]
    | ⟨1, _⟩ => by show 0 = if (1 : Nat) = 1 then 0 else q.val; rw [if_pos rfl])

/-- A one-row array broadcast along the rows reads its column's entry. -/
theorem broadcastTo_row {α : Type} {R C : Nat} (hC : C ≠ 1) (x : (Mat 1 C).Idx → α) (h : (Mat 1 C).Broadcasts (Mat R C))
    (p : Fin R) (q : Fin C) : broadcastTo (Mat R C) x h (ix2 p q) = x (ix2 0 q) :=
  broadcastTo_apply x h (ix2 p q) (ix2 0 q) (fun a => match a with
    | ⟨0, _⟩ => by show 0 = if (1 : Nat) = 1 then 0 else p.val; rw [if_pos rfl]
    | ⟨1, _⟩ => by show q.val = if C = 1 then 0 else q.val; rw [if_neg hC])

/-! ## The scaling pass -/

theorem scale_payload (v0 : Vec Ideal S5000x128 .f32) (v1 : Vec Ideal S5000x1 .f32) (p : Fin 5000) (q : Fin 128) :
    k0_pay1 v0 v1 (ix2 p q) = scaledEntry (v0 (ix2 p q)) (v1 (ix2 p 0)) := by
  unfold k0_pay1 scaledEntry
  simp only [shapeCast_self]
  rw [mulf_apply, broadcastTo_col (by decide)]

/-! ## The hidden pass's matmul, read at an entry -/

theorem lhs_hidden_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_hidden_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_hidden_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_hidden_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matmul into a zero accumulator, at row `p` and column `q`: the sum over the contracted coordinate `k` of
    the left operand at `(p, k)` times the right operand at `(k, q)`. -/
theorem matmul_hidden_apply {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

theorem hidden_payload (v0 : Vec Ideal S5000x128 .f32) (v2 : Vec Ideal S5000x1 .f32) (v7 : Vec Ideal S128x128 .f32)
    (v10 : Vec Ideal S1x128 .f32) (v16 : Vec Ideal S5000x1 .f32) (p : Fin 5000) (q : Fin 128) :
    k1_pay1 v0 v2 v7 v10 v16 (ix2 p q)
      = hiddenRow (fun k => v0 (ix2 p k)) (v2 (ix2 p 0)) (v16 (ix2 p 0)) (fun k q => v7 (ix2 k q)) (fun q => v10 (ix2 0 q)) q := by
  unfold k1_pay1 hiddenRow
  simp only [shapeCast_self]
  rw [mulf_apply, maximumf_apply, addf_apply, matmul_hidden_apply, broadcastTo_col (by decide), broadcastTo_row (by decide)]
  refine congrArg (fun s => max (s + v10 (ix2 0 q)) zeroWord * v16 (ix2 p 0)) (Finset.sum_congr rfl fun k _ => ?_)
  rw [truncf_apply, truncf_apply, mulf_apply, broadcastTo_col (by decide)]

/-! ## The out pass's matmul, read at an entry -/

theorem lhs_out_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_out_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_out_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_out_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matmul into a zero accumulator, at row `p` and column `q`: the sum over the contracted coordinate `k` of
    the left operand at `(p, k)` times the right operand at `(k, q)`. -/
theorem matmul_out_apply {φ₁ φ₂ : FTy} (l : FVec Ideal S5000x128 φ₁) (r : FVec Ideal S128x64 φ₂) (p : Fin 5000) (q : Fin 64) :
    matmul (F := Ideal) dot_S5000x128_S128x64_S5000x64_1_0_0_1_n_n none l r (constant S5000x64 .f32 0x00000000#32) (ix2 p q)
      = ∑ k : Fin 128, l (ix2 p k) * r (ix2 k q) := by
  show FloatOps.matmul dot_S5000x128_S128x64_S5000x64_1_0_0_1_n_n none l r (constant S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

theorem out_payload (v0 : Vec Ideal S5000x128 .f32) (v2 : Vec Ideal S5000x1 .f32) (v7 : Vec Ideal S128x64 .f32)
    (v10 : Vec Ideal S1x64 .f32) (p : Fin 5000) (q : Fin 64) :
    k2_pay1 v0 v2 v7 v10 (ix2 p q)
      = outRow (fun k => v0 (ix2 p k)) (v2 (ix2 p 0)) (fun k q => v7 (ix2 k q)) (fun q => v10 (ix2 0 q)) q := by
  unfold k2_pay1 outRow
  simp only [shapeCast_self]
  rw [addf_apply, matmul_out_apply, broadcastTo_row (by decide)]
  refine congrArg (fun s => s + v10 (ix2 0 q)) (Finset.sum_congr rfl fun k _ => ?_)
  rw [truncf_apply, truncf_apply, mulf_apply, broadcastTo_col (by decide)]

/-! ## A block entry against the whole-array pass

  The stored value at entry `y` of a row block equals the whole-array pass at the array index `i` whenever the block's
  row `y 0` holds row `i 0` of the node-indexed operands (and the weight and bias blocks hold the whole weight and
  bias), and `y`, `i` name the same column. -/

theorem scale_point (x0 : Vec Ideal S5000x128 .f32) (x1 : Vec Ideal S5000x1 .f32)
    (A : (Mat 100000 128).Idx → EReal) (N : (Mat 100000 1).Idx → EReal) (y : S5000x128.Idx) (i : (Mat 100000 128).Idx)
    (h0 : x0 y = A i) (h1 : x1 (ix2 (y 0) 0) = N (ix2 (i 0) 0)) : k0_pay1 x0 x1 y = scaleRows A N i := by
  obtain ⟨p, q, rfl⟩ : ∃ (p : Fin 5000) (q : Fin 128), y = ix2 p q := ⟨y 0, y 1, eq_ix2 y⟩
  rw [scale_payload]
  unfold scaleRows
  rw [h0]
  exact congrArg (scaledEntry (A i)) h1

theorem hidden_point (x0 : Vec Ideal S5000x128 .f32) (x1 x2 : Vec Ideal S5000x1 .f32) (x3 : Vec Ideal S128x128 .f32)
    (x4 : Vec Ideal S1x128 .f32) (A : (Mat 100000 128).Idx → EReal) (ND NS : (Mat 100000 1).Idx → EReal)
    (W : (Mat 128 128).Idx → EReal) (B : (Mat 1 128).Idx → EReal) (y : S5000x128.Idx) (i : (Mat 100000 128).Idx)
    (hq : y 1 = i 1) (h0 : ∀ k : Fin 128, x0 (ix2 (y 0) k) = A (ix2 (i 0) k))
    (h1 : x1 (ix2 (y 0) 0) = ND (ix2 (i 0) 0)) (h2 : x2 (ix2 (y 0) 0) = NS (ix2 (i 0) 0))
    (h3 : ∀ (k q : Fin 128), x3 (ix2 k q) = W (ix2 k q)) (h4 : ∀ q : Fin 128, x4 (ix2 0 q) = B (ix2 0 q)) :
    k1_pay1 x0 x1 x3 x4 x2 y = hiddenLayer A ND NS W B i := by
  obtain ⟨p, q, rfl⟩ : ∃ (p : Fin 5000) (q : Fin 128), y = ix2 p q := ⟨y 0, y 1, eq_ix2 y⟩
  rw [hidden_payload]
  unfold hiddenLayer
  have e0 : (fun k : Fin 128 => x0 (ix2 p k)) = fun k => A (ix2 (i 0) k) := funext h0
  have e3 : (fun k q : Fin 128 => x3 (ix2 k q)) = fun k q => W (ix2 k q) := funext fun k => funext fun q => h3 k q
  have e4 : (fun q : Fin 128 => x4 (ix2 0 q)) = fun q => B (ix2 0 q) := funext h4
  rw [e0, e3, e4]
  show hiddenRow _ (x1 (ix2 p 0)) (x2 (ix2 p 0)) _ _ q = hiddenRow _ _ _ _ _ (i 1)
  rw [show x1 (ix2 p 0) = ND (ix2 (i 0) 0) from h1, show x2 (ix2 p 0) = NS (ix2 (i 0) 0) from h2, show q = i 1 from hq]

theorem out_point (x0 : Vec Ideal S5000x128 .f32) (x1 : Vec Ideal S5000x1 .f32) (x2 : Vec Ideal S128x64 .f32)
    (x3 : Vec Ideal S1x64 .f32) (A : (Mat 100000 128).Idx → EReal) (ND : (Mat 100000 1).Idx → EReal)
    (W : (Mat 128 64).Idx → EReal) (B : (Mat 1 64).Idx → EReal) (y : S5000x64.Idx) (i : (Mat 100000 64).Idx)
    (hq : y 1 = i 1) (h0 : ∀ k : Fin 128, x0 (ix2 (y 0) k) = A (ix2 (i 0) k))
    (h1 : x1 (ix2 (y 0) 0) = ND (ix2 (i 0) 0))
    (h2 : ∀ (k : Fin 128) (q : Fin 64), x2 (ix2 k q) = W (ix2 k q)) (h3 : ∀ q : Fin 64, x3 (ix2 0 q) = B (ix2 0 q)) :
    k2_pay1 x0 x1 x2 x3 y = outLayer A ND W B i := by
  obtain ⟨p, q, rfl⟩ : ∃ (p : Fin 5000) (q : Fin 64), y = ix2 p q := ⟨y 0, y 1, eq_ix2 y⟩
  rw [out_payload]
  unfold outLayer
  have e0 : (fun k : Fin 128 => x0 (ix2 p k)) = fun k => A (ix2 (i 0) k) := funext h0
  have e2 : (fun (k : Fin 128) (q : Fin 64) => x2 (ix2 k q)) = fun k q => W (ix2 k q) := funext fun k => funext fun q => h2 k q
  have e3 : (fun q : Fin 64 => x3 (ix2 0 q)) = fun q => B (ix2 0 q) := funext h3
  rw [e0, e2, e3]
  show outRow _ (x1 (ix2 p 0)) _ _ q = outRow _ _ _ _ (i 1)
  rw [show x1 (ix2 p 0) = ND (ix2 (i 0) 0) from h1, show q = i 1 from hq]

end Cert.Gcn

end
-- ==== Proof.Region0.lean ====
/-
  The scaling pass as a whole: run over its twenty row blocks, the pipeline leaves in the result array the features
  scaled row-wise by the source norms. Point `t` of the grid works on rows `5000·t … 5000·t + 4999`: its input blocks are
  those rows of the features and of the one-column norm array, and what it writes back is those rows of the scaled
  array. The twenty blocks tile the 100000 rows, so the array after the run IS the scaled array.
  Stated at any contents `V` the region may be entered with.
-/
import proofs.«157620_j16552803959363_1_alg».proof.Proof.Gen.KernelIdeal.Frame
import proofs.«157620_j16552803959363_1_alg».proof.Proof.Payloads
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block's one store starts at the block's origin. -/
theorem origin0 : (![0, 0] : Fin 2 → Nat) = fun _ => 0 := funext fun a => by fin_cases a <;> rfl

/-- Every window of the scaling pass sits at block row `t`, block column 0, at point `t`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The scaled array, from the arrays the region is entered with. -/
abbrev scaled (c : Dev nD) : (Mat 100000 128).Idx → EReal :=
  scaleRows (V c main_arg0 : (Mat 100000 128).Idx → EReal) (V c main_v8 : (Mat 100000 1).Idx → EReal)

/-- What point `t` writes back is block `t` of the scaled array. -/
theorem flushed0 (c : Dev nD) (t : Fin cfg0.N) :
    (dat0 V c).flushed 2 t = ((cfg0.win 2).blk t).view.read (Elt Ideal) (scaled V c) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S5000x1) origin0]
  obtain ⟨e0, e1, e2, e3, e4, e5⟩ := idx_facts0 t
  funext j
  refine scale_point _ _ _ _ j _ ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  · show V c main_v8 (((cfg0.win 1).blk t).view.emb (ix2 (j 0) 0)) = V c main_v8 (ix2 ((((cfg0.win 2).blk t).view.emb j) 0) 0)
    refine congrArg (V c main_v8) (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v20).slice (win0_2.rect t)).set ↔ _
  rw [View.set_slice_whole, Rect.mem_set_unit]
  exact Iff.rfl

/-- After the run the result array is the scaled array: row `r` lies in the block of point `r / 5000`. -/
theorem final0 (c : Dev nD) : (dat0 V c).arrAt 2 cfg0.N = scaled V c :=
  (dat0 V c).arrAt_eq_of_cover 2 (scaled V c) (fun t _ => flushed0 V c t) fun i => by
    have hi0 : (i 0).val < 100000 := (i 0).isLt
    have hi1 : (i 1).val < 128 := (i 1).isLt
    let t : Fin cfg0.N := ⟨(i 0).val / 5000, by rw [show cfg0.N = 20 from N_0]; omega⟩
    obtain ⟨e0, e1, e2, e3, e4, e5⟩ := idx_facts0 t
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; rw [e4]; show (i 0).val / 5000 * 5000 ≤ (i 0).val ∧ (i 0).val < (i 0).val / 5000 * 5000 + 5000; omega
    | ⟨1, _⟩ => show win0_2.index t (1 : Fin 2) * 128 ≤ (i 1).val ∧ (i 1).val < win0_2.index t (1 : Fin 2) * 128 + 128; omega

end Cert.Gcn

end
-- ==== Proof.Region1.lean ====
/-
  The first layer's dense pass as a whole: run over its twenty row blocks, the pipeline leaves in the result array the
  first layer applied row by row to the aggregated messages. Point `t` works on rows `5000·t … 5000·t + 4999` of the three
  node-indexed operands (the aggregated messages and the two one-column norm arrays); the weight matrix and the bias
  row are each one block, the same at every point. What point `t` writes back is those rows of the layer's result, and
  the twenty blocks tile the 100000 rows. Stated at any contents `V` the region may be entered with.
-/
import proofs.«157620_j16552803959363_1_alg».proof.Proof.Gen.KernelIdeal.Frame
import proofs.«157620_j16552803959363_1_alg».proof.Proof.Payloads
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block's one store starts at the block's origin. -/
theorem origin1 : (![0, 0] : Fin 2 → Nat) = fun _ => 0 := funext fun a => by fin_cases a <;> rfl

/-- At point `t` the node-indexed windows and the result sit at block row `t`; the weight and the bias at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first layer's result, from the arrays the region is entered with. -/
abbrev hidden (c : Dev nD) : (Mat 100000 128).Idx → EReal :=
  hiddenLayer (V c main_v30 : (Mat 100000 128).Idx → EReal) (V c main_v17 : (Mat 100000 1).Idx → EReal)
    (V c main_v8 : (Mat 100000 1).Idx → EReal) (V c main_arg3 : (Mat 128 128).Idx → EReal) (V c main_v18 : (Mat 1 128).Idx → EReal)

/-- What point `t` writes back is block `t` of the first layer's result. -/
theorem flushed1 (c : Dev nD) (t : Fin cfg1.N) :
    (dat1 V c).flushed 5 t = ((cfg1.win 5).blk t).view.read (Elt Ideal) (hidden V c) := by
  show (cfg1.win 5).cut (grid1.coords t) ((dat1 V c).after 5 t) = _
  rw [after1_5]
  unfold out1_5
  rw [View.canon_unit_zero origin1]
  simp only [View.ld_unit_zero (S := S5000x128) origin1, View.ld_unit_zero (S := S5000x1) origin1,
    View.ld_unit_zero (S := S128x128) origin1, View.ld_unit_zero (S := S1x128) origin1]
  obtain ⟨e00, e01, e10, e11, e20, e21, e30, e31, e40, e41, e50, e51⟩ := idx_facts1 t
  funext j
  refine hidden_point _ _ _ _ _ _ _ _ _ _ j _ ?_ ?_ ?_ ?_ ?_ ?_
  · refine Fin.ext ?_
    show (j 1).val = win1_5.index t (1 : Fin 2) * 128 + 1 * (j 1).val
    omega
  · intro k
    show V c main_v30 (((cfg1.win 0).blk t).view.emb (ix2 (j 0) k)) = V c main_v30 (ix2 ((((cfg1.win 5).blk t).view.emb j) 0) k)
    refine congrArg (V c main_v30) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v17 (((cfg1.win 1).blk t).view.emb (ix2 (j 0) 0)) = V c main_v17 (ix2 ((((cfg1.win 5).blk t).view.emb j) 0) 0)
    refine congrArg (V c main_v17) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_v8 (((cfg1.win 2).blk t).view.emb (ix2 (j 0) 0)) = V c main_v8 (ix2 ((((cfg1.win 5).blk t).view.emb j) 0) 0)
    refine congrArg (V c main_v8) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  · intro k q
    show V c main_arg3 (((cfg1.win 3).blk t).view.emb (ix2 k q)) = V c main_arg3 (ix2 k q)
    refine congrArg (V c main_arg3) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro q
    show V c main_v18 (((cfg1.win 4).blk t).view.emb (ix2 0 q)) = V c main_v18 (ix2 0 q)
    refine congrArg (V c main_v18) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- After the run the result array is the first layer's result: row `r` lies in the block of point `r / 5000`. -/
theorem final1 (c : Dev nD) : (dat1 V c).arrAt 5 cfg1.N = hidden V c :=
  (dat1 V c).arrAt_eq_of_cover 5 (hidden V c) (fun t _ => flushed1 V c t) fun i => by
    have hi0 : (i 0).val < 100000 := (i 0).isLt
    have hi1 : (i 1).val < 128 := (i 1).isLt
    let t : Fin cfg1.N := ⟨(i 0).val / 5000, by rw [show cfg1.N = 20 from N_1]; omega⟩
    obtain ⟨e00, e01, e10, e11, e20, e21, e30, e31, e40, e41, e50, e51⟩ := idx_facts1 t
    refine ⟨t, flush1_5 t, ?_⟩
    rw [mem_blk1]
    intro a
    match a with
    | ⟨0, _⟩ => show win1_5.index t (0 : Fin 2) * 5000 ≤ (i 0).val ∧ (i 0).val < win1_5.index t (0 : Fin 2) * 5000 + 5000; rw [e50]; show (i 0).val / 5000 * 5000 ≤ (i 0).val ∧ (i 0).val < (i 0).val / 5000 * 5000 + 5000; omega
    | ⟨1, _⟩ => show win1_5.index t (1 : Fin 2) * 128 ≤ (i 1).val ∧ (i 1).val < win1_5.index t (1 : Fin 2) * 128 + 128; omega

end Cert.Gcn

end
-- ==== Proof.Region2.lean ====
/-
  The second layer's dense pass as a whole: run over its twenty row blocks, the pipeline leaves in the result array
  the second layer applied row by row to the aggregated messages. Point `t` works on rows `5000·t … 5000·t + 4999` of the
  aggregated messages and of the one-column destination-norm array; the weight matrix and the bias row are each one
  block, the same at every point. What point `t` writes back is those rows of the layer's result, and the twenty blocks
  tile the 100000 rows. Stated at any contents `V` the region may be entered with.
-/
import proofs.«157620_j16552803959363_1_alg».proof.Proof.Gen.KernelIdeal.Frame
import proofs.«157620_j16552803959363_1_alg».proof.Proof.Payloads
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block's one store starts at the block's origin. -/
theorem origin2 : (![0, 0] : Fin 2 → Nat) = fun _ => 0 := funext fun a => by fin_cases a <;> rfl

/-- At point `t` the node-indexed windows and the result sit at block row `t`; the weight and the bias at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The second layer's result, from the arrays the region is entered with. -/
abbrev output (c : Dev nD) : (Mat 100000 64).Idx → EReal :=
  outLayer (V c main_v41 : (Mat 100000 128).Idx → EReal) (V c main_v17 : (Mat 100000 1).Idx → EReal)
    (V c main_arg5 : (Mat 128 64).Idx → EReal) (V c main_v19 : (Mat 1 64).Idx → EReal)

/-- What point `t` writes back is block `t` of the second layer's result. -/
theorem flushed2 (c : Dev nD) (t : Fin cfg2.N) :
    (dat2 V c).flushed 4 t = ((cfg2.win 4).blk t).view.read (Elt Ideal) (output V c) := by
  show (cfg2.win 4).cut (grid2.coords t) ((dat2 V c).after 4 t) = _
  rw [after2_4]
  unfold out2_4
  rw [View.canon_unit_zero origin2]
  simp only [View.ld_unit_zero (S := S5000x128) origin2, View.ld_unit_zero (S := S5000x1) origin2,
    View.ld_unit_zero (S := S128x64) origin2, View.ld_unit_zero (S := S1x64) origin2]
  obtain ⟨e00, e01, e10, e11, e20, e21, e30, e31, e40, e41⟩ := idx_facts2 t
  funext j
  refine out_point _ _ _ _ _ _ _ _ j _ ?_ ?_ ?_ ?_ ?_
  · refine Fin.ext ?_
    show (j 1).val = win2_4.index t (1 : Fin 2) * 64 + 1 * (j 1).val
    omega
  · intro k
    show V c main_v41 (((cfg2.win 0).blk t).view.emb (ix2 (j 0) k)) = V c main_v41 (ix2 ((((cfg2.win 4).blk t).view.emb j) 0) k)
    refine congrArg (V c main_v41) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  · show V c main_v17 (((cfg2.win 1).blk t).view.emb (ix2 (j 0) 0)) = V c main_v17 (ix2 ((((cfg2.win 4).blk t).view.emb j) 0) 0)
    refine congrArg (V c main_v17) (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 1 + 1 * 0 = 0; omega
  · intro k q
    show V c main_arg5 (((cfg2.win 2).blk t).view.emb (ix2 k q)) = V c main_arg5 (ix2 k q)
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 64 + 1 * q.val = q.val; omega
  · intro q
    show V c main_v19 (((cfg2.win 3).blk t).view.emb (ix2 0 q)) = V c main_v19 (ix2 0 q)
    refine congrArg (V c main_v19) (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega

/-- An index of the result array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v42).slice (win2_4.rect t)).set ↔ _
  rw [View.set_slice_whole, Rect.mem_set_unit]
  exact Iff.rfl

/-- After the run the result array is the second layer's result: row `r` lies in the block of point `r / 5000`. -/
theorem final2 (c : Dev nD) : (dat2 V c).arrAt 4 cfg2.N = output V c :=
  (dat2 V c).arrAt_eq_of_cover 4 (output V c) (fun t _ => flushed2 V c t) fun i => by
    have hi0 : (i 0).val < 100000 := (i 0).isLt
    have hi1 : (i 1).val < 64 := (i 1).isLt
    let t : Fin cfg2.N := ⟨(i 0).val / 5000, by rw [show cfg2.N = 20 from N_2]; omega⟩
    obtain ⟨e00, e01, e10, e11, e20, e21, e30, e31, e40, e41⟩ := idx_facts2 t
    refine ⟨t, flush2_4 t, ?_⟩
    rw [mem_blk2]
    intro a
    match a with
    | ⟨0, _⟩ => show win2_4.index t (0 : Fin 2) * 5000 ≤ (i 0).val ∧ (i 0).val < win2_4.index t (0 : Fin 2) * 5000 + 5000; rw [e40]; show (i 0).val / 5000 * 5000 ≤ (i 0).val ∧ (i 0).val < (i 0).val / 5000 * 5000 + 5000; omega
    | ⟨1, _⟩ => show win2_4.index t (1 : Fin 2) * 64 ≤ (i 1).val ∧ (i 1).val < win2_4.index t (1 : Fin 2) * 64 + 64; omega

end Cert.Gcn

end
-- ==== Proof.RefLayers.lean ====
/-
  The reference's three dense stretches are the three passes. Read entry by entry, the reference's scaled features,
  its first layer's result (after the clamp at zero and the rescaling for the next gather) and its final result are
  the row functions of `Layers` applied to: the stage before (the features, or the aggregated messages: kept as they
  are, never opened), the degree norms as one-column arrays, the weight matrix, and the bias as a one-row array.
  The reference keeps each norm as a vector and broadcasts it along the columns, and computes both norms a second
  time for the second layer by the same operations on the same edge lists; the kernel's program keeps them as
  one-column arrays, made once. Both read the norm of row `r` at row `r`.
-/
import proofs.«157620_j16552803959363_1_alg».proof.Proof.Gen.ReferenceIdeal.Read
import proofs.«157620_j16552803959363_1_alg».proof.Proof.Layers
import Idealize.ShloMosaic.Lib.Pipeline.Value
import Idealize.ShloMosaic.Lib.ValueLayout
import Idealize.ShloMosaic.Lib.ValueIdx

noncomputable section

namespace Cert.Gcn

open Cert.ReferenceIdeal Cert.ReferenceIdeal.Read
open Idealize.ShloMosaic Idealize.ShloMosaic.ValueIdx

/-- A vector cast to a one-column array reads, at row `i`, the vector at `i`. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The source norms the second layer recomputes are the first layer's: the same operations on the same edge list. -/
theorem norm_src_again (x1 : (⟨S1600000, .i32⟩ : BufTy).Contents (Elt Ideal)) :
    val_main_v44 (F := Ideal) x1 = val_main_v7 (F := Ideal) x1 := rfl

/-- The destination norms the second layer recomputes are the first layer's. -/
theorem norm_dst_again (x2 : (⟨S1600000, .i32⟩ : BufTy).Contents (Elt Ideal)) :
    val_main_v52 (F := Ideal) x2 = val_main_v15 (F := Ideal) x2 := rfl

/-! ## Where the reference's broadcasts read

  A norm vector broadcast to a column and then along the columns is read, at row `r`, at `r`; a bias vector broadcast to
  a row and then along the rows is read, at column `q`, at `q`; the product's operands at row `r`, column `q` and
  contracted coordinate `k` are read at `(r, k)` and `(k, q)`. -/

theorem col_v17 (r : Fin 100000) (q : Fin 128) : idx_main_v16 (idx_main_v17 (ix2 r q)) = ix1 r :=
  funext fun a => match a with | ⟨0, _⟩ => rfl
theorem col_v30 (r : Fin 100000) (q : Fin 128) : idx_main_v29 (idx_main_v30 (ix2 r q)) = ix1 r :=
  funext fun a => match a with | ⟨0, _⟩ => rfl
theorem col_v54 (r : Fin 100000) (q : Fin 128) : idx_main_v53 (idx_main_v54 (ix2 r q)) = ix1 r :=
  funext fun a => match a with | ⟨0, _⟩ => rfl
theorem col_v67 (r : Fin 100000) (q : Fin 128) : idx_main_v66 (idx_main_v67 (ix2 r q)) = ix1 r :=
  funext fun a => match a with | ⟨0, _⟩ => rfl
theorem row_v34 (r : Fin 100000) (q : Fin 128) : idx_main_v33 (idx_main_v34 (ix2 r q)) = ix1 q :=
  funext fun a => match a with | ⟨0, _⟩ => rfl
theorem row_v71 (r : Fin 100000) (q : Fin 64) : idx_main_v70 (idx_main_v71 (ix2 r q)) = ix1 q :=
  funext fun a => match a with | ⟨0, _⟩ => rfl
theorem lidx_v32 (r : Fin 100000) (q k : Fin 128) : lidx_main_v32 (ix2 r q) k = ix2 r k :=
  funext fun a => match a with | ⟨0, _⟩ => rfl | ⟨1, _⟩ => rfl
theorem ridx_v32 (r : Fin 100000) (q k : Fin 128) : ridx_main_v32 (ix2 r q) k = ix2 k q :=
  funext fun a => match a with | ⟨0, _⟩ => rfl | ⟨1, _⟩ => rfl
theorem lidx_v69 (r : Fin 100000) (q : Fin 64) (k : Fin 128) : lidx_main_v69 (ix2 r q) k = ix2 r k :=
  funext fun a => match a with | ⟨0, _⟩ => rfl | ⟨1, _⟩ => rfl
theorem ridx_v69 (r : Fin 100000) (q : Fin 64) (k : Fin 128) : ridx_main_v69 (ix2 r q) k = ix2 k q :=
  funext fun a => match a with | ⟨0, _⟩ => rfl | ⟨1, _⟩ => rfl

/-- The reference's scaled features are the scaling pass of the features and the source norms as a column. -/
theorem ref_scaled (x0 : (⟨S100000x128, .f32⟩ : BufTy).Contents (Elt Ideal)) (x1 : (⟨S1600000, .i32⟩ : BufTy).Contents (Elt Ideal))
    (h : S100000.ShapeCasts S100000x1) :
    val_main_v18 (F := Ideal) x0 x1 = scaleRows (R := 100000) x0 (shapeCast S100000x1 (val_main_v7 (F := Ideal) x1) h) := by
  funext i
  obtain ⟨r, q, rfl⟩ : ∃ (r : Fin 100000) (q : Fin 128), i = ix2 r q := ⟨i 0, i 1, eq_ix2 i⟩
  rw [val_main_v18_apply, val_main_v17_apply, val_main_v16_apply, scaleRows_apply, shapeCast_col_apply, Ideal.mulf_def,
    col_v17]
  rfl

/-- The reference's first layer, clamped and rescaled for the next gather, is the first-layer pass of the aggregated
    messages, the two norms as columns, the weight, and the bias as a row. -/
theorem ref_hidden (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (hc : S100000.ShapeCasts S100000x1) (hb : S128.ShapeCasts S1x128) :
    val_main_v55 (F := Ideal) x0 x1 x2 x3 x4
      = hiddenLayer (R := 100000) (val_main_v28 (F := Ideal) x0 x1 x2) (shapeCast S100000x1 (val_main_v15 (F := Ideal) x2) hc)
          (shapeCast S100000x1 (val_main_v7 (F := Ideal) x1) hc) x3 (shapeCast S1x128 x4 hb) := by
  funext i
  obtain ⟨r, q, rfl⟩ : ∃ (r : Fin 100000) (q : Fin 128), i = ix2 r q := ⟨i 0, i 1, eq_ix2 i⟩
  rw [val_main_v55_apply, val_main_v54_apply, val_main_v53_apply, val_main_v36_apply, val_main_call0_v0_apply,
    val_main_call0_cst_apply, val_main_v35_apply, val_main_v34_apply, val_main_v33_apply, val_main_v32_apply,
    hiddenLayer_apply, norm_src_again]
  unfold hiddenRow
  rw [shapeCast_col_apply, shapeCast_col_apply]
  simp only [Ideal.mulf_def, Ideal.maximumf_def, Ideal.addf_def, Ideal.ofBits_def]
  rw [shapeCast_a_1a_apply, col_v54, row_v34]
  refine congrArg (fun s => max (s + x4 (ix1 q)) zeroWord * val_main_v7 (F := Ideal) x1 (ix1 r)) (Finset.sum_congr rfl fun k _ => ?_)
  rw [lidx_v32, ridx_v32, val_main_v31_apply, val_main_v30_apply, val_main_v29_apply, col_v30, Ideal.mulf_def]

/-- The reference's final result is the second-layer pass of the aggregated messages, the destination norms as a
    column, the weight, and the bias as a row. -/
theorem ref_out (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (hc : S100000.ShapeCasts S100000x1) (hb : S64.ShapeCasts S1x64) :
    val_main_v72 (F := Ideal) x0 x1 x2 x3 x4 x5 x6
      = outLayer (R := 100000) (val_main_v65 (F := Ideal) x0 x1 x2 x3 x4) (shapeCast S100000x1 (val_main_v15 (F := Ideal) x2) hc)
          x5 (shapeCast S1x64 x6 hb) := by
  funext i
  obtain ⟨r, q, rfl⟩ : ∃ (r : Fin 100000) (q : Fin 64), i = ix2 r q := ⟨i 0, i 1, eq_ix2 i⟩
  rw [val_main_v72_apply, val_main_v71_apply, val_main_v70_apply, val_main_v69_apply, outLayer_apply]
  unfold outRow
  rw [shapeCast_col_apply]
  simp only [Ideal.addf_def]
  rw [shapeCast_a_1a_apply, row_v71]
  refine congrArg (fun s => s + x6 (ix1 q)) (Finset.sum_congr rfl fun k _ => ?_)
  rw [lidx_v69, ridx_v69, val_main_v68_apply, val_main_v67_apply, val_main_v66_apply, col_v67, norm_dst_again, Ideal.mulf_def]

end Cert.Gcn

end
-- ==== Proof.KernelChain.lean ====
/-
  The kernel's program, boundary by boundary, against the reference's stages. @main is: the degree norms (host), the
  scaling pass, gather and segment-sum (host), the first layer's pass, gather and segment-sum again (host), the second
  layer's pass. Following the buffers' contents through these six boundaries:
    * the norms are the reference's norm vectors cast to one-column arrays, and stay put to where they are read;
    * the scaling pass leaves the reference's scaled features;
    * the host stretch after it applies to them the reference's own gather and segment-sum, on the same edge lists;
    * the first layer's pass leaves the reference's rescaled hidden features; the second host stretch and the second
      layer's pass likewise. The gathers, the segment-sums and the norm computations are never opened: they are the
      same host operations on both sides, applied to values already known equal.
  So the result array ends at the reference's last stage, as a function of the seven argument arrays.
-/
import proofs.«157620_j16552803959363_1_alg».proof.Proof.Gen.KernelIdeal.Frame
import proofs.«157620_j16552803959363_1_alg».proof.Proof.Region0
import proofs.«157620_j16552803959363_1_alg».proof.Proof.Region1
import proofs.«157620_j16552803959363_1_alg».proof.Proof.Region2
import proofs.«157620_j16552803959363_1_alg».proof.Proof.RefLayers
import Idealize.ShloMosaic.Lib.StableHlo.Run

set_option maxRecDepth 16384

noncomputable section

namespace Cert.Gcn

open Cert.KernelIdeal Cert.KernelIdeal.Gen
open Cert.ReferenceIdeal.Read
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- A buffer no operation of a host stretch writes holds after the stretch what it held before. -/
macro "untouched_by" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## After the first host stretch (the scaling pass's entry) -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by untouched_by hostOps0).trans rfl
theorem W1_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by untouched_by hostOps0).trans rfl
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by untouched_by hostOps0).trans rfl
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by untouched_by hostOps0).trans rfl
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by untouched_by hostOps0).trans rfl

/-- The source norms, as the one-column array the passes read: the reference's norm vector, cast. -/
theorem W1_v8 (c : Dev nD) : W1 m ρ c (Proc.devRef .tc main_v8)
    = shapeCast S100000x1 (val_main_v7 (F := Ideal) (m ((c : Thread nD τ).loc main_arg1))) shapeCasts_S100000_S100000x1 := by
  show StableHlo.after hostOps0 (W0 m ρ c) (Proc.devRef .tc main_v8) = _
  after_results
  rfl
/-- The destination norms, likewise. -/
theorem W1_v17 (c : Dev nD) : W1 m ρ c (Proc.devRef .tc main_v17)
    = shapeCast S100000x1 (val_main_v15 (F := Ideal) (m ((c : Thread nD τ).loc main_arg2))) shapeCasts_S100000_S100000x1 := by
  show StableHlo.after hostOps0 (W0 m ρ c) (Proc.devRef .tc main_v17) = _
  after_results
  rfl
/-- The first bias as a one-row array. -/
theorem W1_v18 (c : Dev nD) : W1 m ρ c (Proc.devRef .tc main_v18)
    = shapeCast S1x128 (m ((c : Thread nD τ).loc main_arg4)) shapeCasts_S128_S1x128 := by
  show StableHlo.after hostOps0 (W0 m ρ c) (Proc.devRef .tc main_v18) = _
  after_results
  rfl
/-- The second bias as a one-row array. -/
theorem W1_v19 (c : Dev nD) : W1 m ρ c (Proc.devRef .tc main_v19)
    = shapeCast S1x64 (m ((c : Thread nD τ).loc main_arg6)) shapeCasts_S64_S1x64 := by
  show StableHlo.after hostOps0 (W0 m ρ c) (Proc.devRef .tc main_v19) = _
  after_results
  rfl

/-! ## After the scaling pass

  The pass writes its result array only; its two input arrays end as entered, every other buffer is not its. -/

/-- The scaling pass leaves the reference's scaled features. -/
theorem W2_v20 (c : Dev nD) : W2 m ρ c (Proc.devRef .tc main_v20) = val_main_v18 (F := Ideal) (m ((c : Thread nD τ).loc main_arg0)) (m ((c : Thread nD τ).loc main_arg1)) :=
  (W2_arr m ρ c 2).trans ((final0 (V1 m ρ) c).trans
    ((congrArg₂ (scaleRows (R := 100000)) (W1_arg0 m ρ c) (W1_v8 m ρ c)).trans (ref_scaled _ _ _).symm))
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_v17 (c : Dev nD) : W2 m ρ c (Proc.devRef .tc main_v17) = shapeCast S100000x1 (val_main_v15 (F := Ideal) (m ((c : Thread nD τ).loc main_arg2))) shapeCasts_S100000_S100000x1 :=
  (W2_of_ne m ρ c main_v17 (by decide)).trans (W1_v17 m ρ c)
theorem W2_v18 (c : Dev nD) : W2 m ρ c (Proc.devRef .tc main_v18) = shapeCast S1x128 (m ((c : Thread nD τ).loc main_arg4)) shapeCasts_S128_S1x128 :=
  (W2_of_ne m ρ c main_v18 (by decide)).trans (W1_v18 m ρ c)
theorem W2_v19 (c : Dev nD) : W2 m ρ c (Proc.devRef .tc main_v19) = shapeCast S1x64 (m ((c : Thread nD τ).loc main_arg6)) shapeCasts_S64_S1x64 :=
  (W2_of_ne m ρ c main_v19 (by decide)).trans (W1_v19 m ρ c)
theorem W2_v8 (c : Dev nD) : W2 m ρ c (Proc.devRef .tc main_v8) = shapeCast S100000x1 (val_main_v7 (F := Ideal) (m ((c : Thread nD τ).loc main_arg1))) shapeCasts_S100000_S100000x1 :=
  (W2_arr m ρ c 1).trans (((dat0 (V1 m ρ) c).arrAt_in 1 rfl _).trans ((A_eq0 (V1 m ρ) c 1).trans (W1_v8 m ρ c)))

/-! ## After the second host stretch (the first layer's entry)

  The stretch gathers the scaled features along the source list and sums them into the destination rows: the
  reference's own two operations, on the same lists. It writes nothing else the passes read. -/
theorem W3_arg1 (c : Dev nD) : W3 m ρ c (Proc.devRef .tc main_arg1) = m ((c : Thread nD τ).loc main_arg1) :=
  (show StableHlo.after hostOps1 (W2 m ρ c) (Proc.devRef .tc main_arg1) = W2 m ρ c (Proc.devRef .tc main_arg1) by untouched_by hostOps1).trans (W2_arg1 m ρ c)
theorem W3_arg2 (c : Dev nD) : W3 m ρ c (Proc.devRef .tc main_arg2) = m ((c : Thread nD τ).loc main_arg2) :=
  (show StableHlo.after hostOps1 (W2 m ρ c) (Proc.devRef .tc main_arg2) = W2 m ρ c (Proc.devRef .tc main_arg2) by untouched_by hostOps1).trans (W2_arg2 m ρ c)
theorem W3_arg3 (c : Dev nD) : W3 m ρ c (Proc.devRef .tc main_arg3) = m ((c : Thread nD τ).loc main_arg3) :=
  (show StableHlo.after hostOps1 (W2 m ρ c) (Proc.devRef .tc main_arg3) = W2 m ρ c (Proc.devRef .tc main_arg3) by untouched_by hostOps1).trans (W2_arg3 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by untouched_by hostOps1).trans (W2_arg5 m ρ c)
theorem W3_v8 (c : Dev nD) : W3 m ρ c (Proc.devRef .tc main_v8) = shapeCast S100000x1 (val_main_v7 (F := Ideal) (m ((c : Thread nD τ).loc main_arg1))) shapeCasts_S100000_S100000x1 :=
  (show StableHlo.after hostOps1 (W2 m ρ c) (Proc.devRef .tc main_v8) = W2 m ρ c (Proc.devRef .tc main_v8) by untouched_by hostOps1).trans (W2_v8 m ρ c)
theorem W3_v17 (c : Dev nD) : W3 m ρ c (Proc.devRef .tc main_v17) = shapeCast S100000x1 (val_main_v15 (F := Ideal) (m ((c : Thread nD τ).loc main_arg2))) shapeCasts_S100000_S100000x1 :=
  (show StableHlo.after hostOps1 (W2 m ρ c) (Proc.devRef .tc main_v17) = W2 m ρ c (Proc.devRef .tc main_v17) by untouched_by hostOps1).trans (W2_v17 m ρ c)
theorem W3_v18 (c : Dev nD) : W3 m ρ c (Proc.devRef .tc main_v18) = shapeCast S1x128 (m ((c : Thread nD τ).loc main_arg4)) shapeCasts_S128_S1x128 :=
  (show StableHlo.after hostOps1 (W2 m ρ c) (Proc.devRef .tc main_v18) = W2 m ρ c (Proc.devRef .tc main_v18) by untouched_by hostOps1).trans (W2_v18 m ρ c)
theorem W3_v19 (c : Dev nD) : W3 m ρ c (Proc.devRef .tc main_v19) = shapeCast S1x64 (m ((c : Thread nD τ).loc main_arg6)) shapeCasts_S64_S1x64 :=
  (show StableHlo.after hostOps1 (W2 m ρ c) (Proc.devRef .tc main_v19) = W2 m ρ c (Proc.devRef .tc main_v19) by untouched_by hostOps1).trans (W2_v19 m ρ c)

/-- The first aggregation is the reference's. -/
theorem W3_v30 (c : Dev nD) : W3 m ρ c (Proc.devRef .tc main_v30) = val_main_v28 (F := Ideal) (m ((c : Thread nD τ).loc main_arg0)) (m ((c : Thread nD τ).loc main_arg1)) (m ((c : Thread nD τ).loc main_arg2)) := by
  show StableHlo.after hostOps1 (W2 m ρ c) (Proc.devRef .tc main_v30) = _
  after_results
  rw [W2_v20, W2_arg1, W2_arg2]
  rfl

/-! ## After the first layer's pass -/

/-- The first layer's pass leaves the reference's rescaled hidden features. -/
theorem W4_v31 (c : Dev nD) : W4 m ρ c (Proc.devRef .tc main_v31) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((final1 (V3 m ρ) c).trans ?_)
  show hiddenLayer (R := 100000) (W3 m ρ c (Proc.devRef .tc main_v30)) (W3 m ρ c (Proc.devRef .tc main_v17)) (W3 m ρ c (Proc.devRef .tc main_v8))
    (W3 m ρ c (Proc.devRef .tc main_arg3)) (W3 m ρ c (Proc.devRef .tc main_v18)) = _
  rw [W3_v30, W3_v17, W3_v8, W3_arg3, W3_v18]
  exact (ref_hidden _ _ _ _ _ _ _).symm
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_v19 (c : Dev nD) : W4 m ρ c (Proc.devRef .tc main_v19) = shapeCast S1x64 (m ((c : Thread nD τ).loc main_arg6)) shapeCasts_S64_S1x64 :=
  (W4_of_ne m ρ c main_v19 (by decide)).trans (W3_v19 m ρ c)
theorem W4_v17 (c : Dev nD) : W4 m ρ c (Proc.devRef .tc main_v17) = shapeCast S100000x1 (val_main_v15 (F := Ideal) (m ((c : Thread nD τ).loc main_arg2))) shapeCasts_S100000_S100000x1 :=
  (W4_arr m ρ c 1).trans (((dat1 (V3 m ρ) c).arrAt_in 1 rfl _).trans ((A_eq1 (V3 m ρ) c 1).trans (W3_v17 m ρ c)))

/-! ## After the third host stretch (the second layer's entry) -/
theorem W5_arg5 (c : Dev nD) : W5 m ρ c (Proc.devRef .tc main_arg5) = m ((c : Thread nD τ).loc main_arg5) :=
  (show StableHlo.after hostOps2 (W4 m ρ c) (Proc.devRef .tc main_arg5) = W4 m ρ c (Proc.devRef .tc main_arg5) by untouched_by hostOps2).trans (W4_arg5 m ρ c)
theorem W5_v17 (c : Dev nD) : W5 m ρ c (Proc.devRef .tc main_v17) = shapeCast S100000x1 (val_main_v15 (F := Ideal) (m ((c : Thread nD τ).loc main_arg2))) shapeCasts_S100000_S100000x1 :=
  (show StableHlo.after hostOps2 (W4 m ρ c) (Proc.devRef .tc main_v17) = W4 m ρ c (Proc.devRef .tc main_v17) by untouched_by hostOps2).trans (W4_v17 m ρ c)
theorem W5_v19 (c : Dev nD) : W5 m ρ c (Proc.devRef .tc main_v19) = shapeCast S1x64 (m ((c : Thread nD τ).loc main_arg6)) shapeCasts_S64_S1x64 :=
  (show StableHlo.after hostOps2 (W4 m ρ c) (Proc.devRef .tc main_v19) = W4 m ρ c (Proc.devRef .tc main_v19) by untouched_by hostOps2).trans (W4_v19 m ρ c)

/-- The second aggregation is the reference's. -/
theorem W5_v41 (c : Dev nD) : W5 m ρ c (Proc.devRef .tc main_v41) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v41) = _
  after_results
  rw [W4_v31, W4_arg1, W4_arg2]
  rfl

/-! ## After the second layer's pass: the result -/

/-- The result array ends at the reference's last stage of the seven argument arrays. -/
theorem W6_v42 (c : Dev nD) : W6 m ρ c (Proc.devRef .tc main_v42)
    = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 4).trans ((final2 (V5 m ρ) c).trans ?_)
  show outLayer (R := 100000) (W5 m ρ c (Proc.devRef .tc main_v41)) (W5 m ρ c (Proc.devRef .tc main_v17))
    (W5 m ρ c (Proc.devRef .tc main_arg5)) (W5 m ρ c (Proc.devRef .tc main_v19)) = _
  rw [W5_v41, W5_v17, W5_arg5, W5_v19]
  exact (ref_out _ _ _ _ _ _ _ _ _).symm

end Cert.Gcn

end
-- ==== Proof.lean ====
/-
  The two-layer graph convolution  out = Â·relu(Â·X·W1 + b1)·W2 + b2,  Â = D_dst^(-1/2) A D_src^(-1/2):  a program that
  does the dense row-wise work in three tiled passes (scale the features by the source norms; the first layer's
  product, bias, clamp at zero and rescaling; the second layer's product and bias) around the host's gather and
  segment-sum, against the plain host reference. Over the extended reals the two compute the same function of the
  seven arguments, operation for operation:
    * both take the degree norms by the same host operations on the edge lists;
    * each tiled pass, run over its twenty row blocks, leaves in its result array exactly the reference's stage
      (rounding the product's operands to bf16 is the identity here, and a product row·matrix is the same sum over
      the contracted coordinate on both sides: no law beyond that is used, so finiteness of the inputs is not needed);
    * between the passes both apply the same gather and segment-sum to those equal arrays.
  The frames of the two kernel programs are the generated ones; the reference's frame is its generated run with the
  result dropped; nothing was rewritten when the kernel was idealized, so that conjunct is trivial.
-/
import proofs.«157620_j16552803959363_1_alg».proof.Defs
import proofs.«157620_j16552803959363_1_alg».proof.Proof.Gen.Kernel
import proofs.«157620_j16552803959363_1_alg».proof.Proof.Gen.Kernel.Skeleton
import proofs.«157620_j16552803959363_1_alg».proof.Proof.Gen.Kernel.Launch
import proofs.«157620_j16552803959363_1_alg».proof.Proof.Gen.Kernel.Points
import proofs.«157620_j16552803959363_1_alg».proof.Proof.Gen.Kernel.Frame
import proofs.«157620_j16552803959363_1_alg».proof.Proof.Gen.KernelIdeal
import proofs.«157620_j16552803959363_1_alg».proof.Proof.Gen.KernelIdeal.Skeleton
import proofs.«157620_j16552803959363_1_alg».proof.Proof.Gen.KernelIdeal.Launch
import proofs.«157620_j16552803959363_1_alg».proof.Proof.Gen.KernelIdeal.Points
import proofs.«157620_j16552803959363_1_alg».proof.Proof.Gen.KernelIdeal.Frame
import proofs.«157620_j16552803959363_1_alg».proof.Proof.Gen.ReferenceIdeal
import proofs.«157620_j16552803959363_1_alg».proof.Proof.Gen.ReferenceIdeal.Run
import proofs.«157620_j16552803959363_1_alg».proof.Proof.Gen.ReferenceIdeal.Read
import proofs.«157620_j16552803959363_1_alg».proof.Proof.Gen.Pre_finite_inputs
import proofs.«157620_j16552803959363_1_alg».proof.Proof.KernelRun
import proofs.«157620_j16552803959363_1_alg».proof.Proof.KernelChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program ends with its result array at the reference's last stage of the arguments; the reference
    ends with its result at that stage of its own arguments, which agree with the kernel's. -/
theorem algebraic : Cert.algebraic_KernelIdeal_ReferenceIdeal := by
  intro m ρ m' ρ' _ hagree
  refine ⟨fun c => Cert.KernelIdeal.Gen.W6 m ρ c (Proc.devRef .tc Cert.KernelIdeal.main_v42),
    Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v72_eq, e0, e1, e2, e3, e4, e5, e6]
  exact (Cert.Gcn.W6_v42 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
